-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S8x256 : Shape := ⟨2, ![8, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_

variable [Facts]

def fn {F : FTy → Type} [FloatOps F] (main_arg0 : FVec F S32x4096x256 .f32) (main_arg1 : FVec F S8x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  main_v8
-- ==== Kernel.lean ====
abbrev S32x4096x256 : Shape := ⟨3, ![32, 4096, 256]⟩
abbrev S8x256 : Shape := ⟨2, ![8, 256]⟩
abbrev S8x1024x256 : Shape := ⟨3, ![8, 1024, 256]⟩
abbrev S1x8x256 : Shape := ⟨3, ![1, 8, 256]⟩
abbrev S128x8x256 : Shape := ⟨3, ![128, 8, 256]⟩
abbrev S1024x256 : Shape := ⟨2, ![1024, 256]⟩
abbrev S1x1024x256 : Shape := ⟨3, ![1, 1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S32x4096x256, .f32⟩
  | .hbm, ⟨1, _⟩ => ⟨S8x256, .f32⟩
  | .hbm, ⟨2, _⟩ => ⟨S32x4096x256, .f32⟩
  | .local _ .vmem, ⟨0, _⟩ => ⟨S8x256, .f32⟩
  | .local _ .vmem, ⟨1, _⟩ => ⟨S8x1024x256, .f32⟩
  | .local _ .vmem, ⟨2, _⟩ => ⟨S8x1024x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S1x8x256 : S8x256.ShapeCasts S1x8x256
  shapeCasts_S1x8x256_S1x8x256 : S1x8x256.ShapeCasts S1x8x256
  broadcasts_S1x8x256_S128x8x256 : S1x8x256.Broadcasts S128x8x256
  shapeCasts_S128x8x256_S1024x256 : S128x8x256.ShapeCasts S1024x256
  shapeCasts_S1024x256_S1x1024x256 : S1024x256.ShapeCasts S1x1024x256
  shapeCasts_S1x1024x256_S1x1024x256 : S1x1024x256.ShapeCasts S1x1024x256
  broadcasts_S1x1024x256_S8x1024x256 : S1x1024x256.Broadcasts S8x1024x256
  inb_S8x1024x256_S8x1024x256_0_0_0 : ∀ a, (![0, 0, 0] : Fin 3 → Nat) a + S8x1024x256.size a ≤ S8x1024x256.size a
  h_S8x1024x256 : 0 < S8x1024x256.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S8x256.size a
  hwx0_0 : ∀ i : grid0.Coords, EltTy.bits .f32 = 32 ∨ (Rect.block (s := S8x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x256.size a ≤ S32x4096x256.size a
  hwx0_1 : ∀ i : grid0.Coords, EltTy.bits .f32 = 32 ∨ (Rect.block (s := S32x4096x256) S8x1024x256.size (cc0_transform_1 i) (hinb0_1 i)).WholeWords (EltTy.packing .f32)

variable [Facts₀]

abbrev win0_0 : Pipeline.Window sig grid0 :=
  Pipeline.Window.ofSpec (Memref.whole main_arg1) S8x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S8x256 : Shape := ⟨2, ![8, 256]⟩
abbrev S4096 : Shape := ⟨1, ![4096]⟩
abbrev S_ : Shape := ⟨0, ![]⟩
abbrev S4096x1 : Shape := ⟨2, ![4096, 1]⟩
abbrev S4096x256 : Shape := ⟨2, ![4096, 256]⟩
abbrev S1x4096x256 : Shape := ⟨3, ![1, 4096, 256]⟩

abbrev nBuf : Space → Nat
  | .hbm => 36
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S8x256, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S_, .i1⟩
  | .hbm, ⟨19, _⟩ => ⟨S4096, .i1⟩
  | .hbm, ⟨20, _⟩ => ⟨S4096, .i1⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x256, .f32⟩
  | .hbm, ⟨34, _⟩ => ⟨S1x4096x256, .f32⟩
  | .hbm, ⟨35, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x256_S1x4096x256_1_2 : S4096x256.BroadcastsInDim S1x4096x256 (![1, 2] : Fin 2 → Fin S1x4096x256.rank)
  bcast_S1x4096x256_S32x4096x256_0_1_2 : S1x4096x256.BroadcastsInDim S32x4096x256 (![0, 1, 2] : Fin 3 → Fin S32x4096x256.rank)
  gather_S8x256_S4096x1_S4096x256_1_0_n_n_0_1_1256_wf : GatherDims.WF S8x256 S4096x1 S4096x256 [1] [0] [] [0] [] 1 ![1, 256]

variable [Facts₀]

def gather_S8x256_S4096x1_S4096x256_1_0_n_n_0_1_1256 : GatherDims S8x256 S4096x1 S4096x256 where
  offsetDims := [1]
  collapsedSliceDims := [0]
  operandBatchingDims := []
  startIndicesBatchingDims := []
  startIndexMap := [0]
  indexVectorDim := 1
  sliceSizes := ![1, 256]
  wf := gather_S8x256_S4096x1_S4096x256_1_0_n_n_0_1_1256_wf

class Facts : Prop extends Facts₀ where

variable [Facts]
-- ==== Proof.TableRows.lean ====
/-
  The specification: the table's rows repeated with period 8 along the sequence axis, the same for every batch.

  For a table `E` of shape [8, 256] the result of shape [32, 4096, 256] holds, at (b, s, e), the table's entry
  (s mod 8, e). It does not depend on b, and it mentions no arithmetic on the entries: both programs only MOVE the
  table's entries, so the statement holds for entries of any type.
-/
import Idealize.ShloMosaic.Lib.ValueIdx

namespace TableRows

open Idealize.ShloMosaic Idealize.ShloMosaic.ValueIdx

/-- The table entry that result index (b, s, e) shows: (s mod 8, e). -/
abbrev rowOf (i : (⟨3, ![32, 4096, 256]⟩ : Shape).Idx) : (⟨2, ![8, 256]⟩ : Shape).Idx :=
  ix2 (⟨(i 1).val % 8, Nat.mod_lt _ (by decide)⟩ : Fin 8) (⟨(i 2).val, (i 2).isLt⟩ : Fin 256)

/-- The whole result as one function of the table. -/
def tiled {α : Type} (E : (⟨2, ![8, 256]⟩ : Shape).Idx → α) : (⟨3, ![32, 4096, 256]⟩ : Shape).Idx → α :=
  fun i => E (rowOf i)

theorem tiled_apply {α : Type} (E : (⟨2, ![8, 256]⟩ : Shape).Idx → α) (i : (⟨3, ![32, 4096, 256]⟩ : Shape).Idx) :
    tiled E i = E (rowOf i) := rfl

end TableRows
-- ==== Proof.KernelTiled.lean ====
/-
  The kernel's result array is the table's rows repeated with period 8.

  The grid is 4 × 4. Point (g, h) writes the block of rows [8g, 8g + 8) × [1024h, 1024h + 1024) × [0, 256) of the result.
  Its body loads the whole table (the input window's block is the whole table at every point), lays 128 copies of
  the 8 rows one after the other to make 1024 rows, and repeats that 8 times along the batch axis: the block's entry
  (y0, y1, y2) is the table's (y1 mod 8, y2) (the generated value leg proves that much about the body).
  Since 1024 is a multiple of 8, row y1 of block h is sequence position 1024h + y1, and (1024h + y1) mod 8 = y1 mod 8:
  every block is the restriction of ONE function of the result index, `TableRows.tiled`. The sixteen blocks tile the
  result, so the array after the run is that function everywhere.
-/
import proofs.«158773_j40252433498313_1_alg».proof.Proof.Gen.KernelIdeal.Value
import proofs.«158773_j40252433498313_1_alg».proof.Proof.TableRows

noncomputable section

namespace Cert.KernelIdeal.Tiled

open Cert.KernelIdeal Cert.KernelIdeal.Gen Idealize.ShloMosaic Idealize.ShloMosaic.TcCoe Idealize.SL.Sem
open Idealize.ShloMosaic.Pipeline (Dat)
open Idealize.ShloMosaic.ValueIdx TableRows

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- What the body leaves in the output block, for any loaded table: entry y is the table's (y1 mod 8, y2). -/
theorem block_apply (x0 : Vec F S8x256 .f32) (y : S8x1024x256.Idx) :
    out0_1 x0 y = x0 (Value.ix1_0 y) := by
  unfold out0_1
  rw [Value.canon1_eq]
  show View.ld x0 r0_0 (Value.ix1_0 y) = x0 (Value.ix1_0 y)
  rw [View.ld_unit_zero (S := S8x256) zero_offsets]

/-- The printed index maps over the sixteen points: the table's block never moves, the output's block index is the
    point's two coordinates (each below 4) and 0 on the last axis. -/
theorem index_facts : ∀ t : Fin cfg0.N, win0_0.index t (0 : Fin 2) = 0 ∧ win0_0.index t (1 : Fin 2) = 0
    ∧ win0_1.index t (0 : Fin 3) ≤ 3 ∧ win0_1.index t (1 : Fin 3) ≤ 3 ∧ win0_1.index t (2 : Fin 3) = 0 :=
  (by decide +kernel : ∀ t : Fin grid0.N, _)

/-- Every pair of block coordinates is some point's. -/
theorem index_onto : ∀ (g h : Fin 4), ∃ t : Fin cfg0.N, win0_1.index t = ![g.val, h.val, 0] :=
  (by decide +kernel : ∀ (g h : Fin 4), ∃ t : Fin grid0.N, win0_1.index t = ![g.val, h.val, 0])

/-- WHAT POINT t WRITES BACK is block t of the tiled table. -/
theorem flushed_eq (c : Dev nD) (t : Fin cfg0.N) :
    (dats m 0 c).flushed 1 t = ((cfg0.win 1).blk t).view.read (Elt F) (tiled (V m c main_arg1)) := by
  rw [Value.flushed1]
  obtain ⟨e0, e1, -, -, e4⟩ := index_facts t
  funext y
  show out0_1 (iblk m c 0 t) y = V m c main_arg1 (rowOf (((cfg0.win 1).blk t).view.emb y))
  refine (block_apply (iblk m c 0 t) y).trans ?_
  show V m c main_arg1 (((cfg0.win 0).blk t).view.emb (Value.ix1_0 y)) = V m c main_arg1 (rowOf (((cfg0.win 1).blk t).view.emb y))
  refine congrArg (V m c main_arg1) ?_
  funext a; apply Fin.ext
  have hy1 : (y 1).val < 1024 := (y 1).isLt
  have hy2 : (y 2).val < 256 := (y 2).isLt
  match a with
  | ⟨0, _⟩ =>
    show win0_0.index t (0 : Fin 2) * 8 + 1 * ((y 1).val % 8) = (win0_1.index t (1 : Fin 3) * 1024 + 1 * (y 1).val) % 8
    omega
  | ⟨1, _⟩ =>
    show win0_0.index t (1 : Fin 2) * 256 + 1 * (y 2).val = win0_1.index t (2 : Fin 3) * 256 + 1 * (y 2).val
    omega

/-- An index of the result is in point t's block iff each coordinate is in the block's range on its axis. -/
theorem mem_block (t : Fin cfg0.N) (i : S32x4096x256.Idx) :
    i ∈ ((cfg0.win 1).blk t).view.set ↔ ∀ a : Fin 3, win0_1.index t a * S8x1024x256.size a ≤ (i a).val ∧ (i a).val < win0_1.index t a * S8x1024x256.size a + S8x1024x256.size a := by
  show i ∈ ((View.whole main_v0).slice (win0_1.rect t)).set ↔ _
  rw [View.set_slice_whole, Rect.mem_set_unit]
  exact Iff.rfl

/-- The sixteen blocks cover the result: index (b, s, e) lies in the block of the point with coordinates (b / 8, s / 1024). -/
theorem covered (i : S32x4096x256.Idx) :
    ∃ t : Fin cfg0.N, (cfg0.win 1).flush t = true ∧ i ∈ ((cfg0.win 1).blk t).view.set := by
  have hi0 : (i 0).val < 32 := (i 0).isLt
  have hi1 : (i 1).val < 4096 := (i 1).isLt
  have hi2 : (i 2).val < 256 := (i 2).isLt
  obtain ⟨t, ht⟩ := index_onto ⟨(i 0).val / 8, by omega⟩ ⟨(i 1).val / 1024, by omega⟩
  have q0 : win0_1.index t (0 : Fin 3) = (i 0).val / 8 := congrFun ht 0
  have q1 : win0_1.index t (1 : Fin 3) = (i 1).val / 1024 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 256 ≤ (i 2).val ∧ (i 2).val < win0_1.index t (2 : Fin 3) * 256 + 256; omega

/-- THE ARRAY after the run is the tiled table. -/
theorem final (c : Dev nD) : (dats m 0 c).arrAt 1 cfg0.N = tiled (m ((c : Thread nD τ).loc main_arg1)) :=
  (dats m 0 c).arrAt_eq_of_cover 1 (tiled (V m c main_arg1)) (fun t _ => flushed_eq m c t) covered

/-- The run, read: the result buffer ends at the tiled table, the arguments unchanged. -/
theorem run : θ_run defs (onTc (τ := τ) (main (F := F))) ⟨m, fun _ => 0, ρ⟩ fun r => ∀ c : Dev nD,
      r.2.mem ((c : Thread nD τ).loc main_v0) = tiled (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiled

end
-- ==== Proof.ReferenceLine.lean ====
/-
  The reference as ONE straight line of host operations.

  @main computes `E[arange(4096) % 8]` broadcast over the batch: an iota, the constant 8, a call of the outlined
  function `remainder`, the wrap of a negative index (compare with 0, add 8, select), the index vector laid as a
  column, the gather of rows of the table, and two broadcasts up to [32, 4096, 256]. `remainder` in turn guards the
  divisor against zero through `_where` (one select), takes the truncated remainder, and moves it to the divisor's
  sign (two sign tests, their disagreement, "and not zero", add the divisor, select).

  A call executes the callee's body on the caller's buffers, so the whole program is the list below: @main's
  operations with the twenty-one of `remainder` (the select of `_where` among them) in the call's place, each writing
  the buffer the call's record names. `main_eq` says @main IS that list run in order; `run_line` is then the library's
  statement for a straight line: every execution terminates and each buffer ends at the list's fold over the
  launch contents.
-/
import proofs.«158773_j40252433498313_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order, the call of `remainder` (and inside it of `_where`) replaced by the callee's own. -/
abbrev ops : List (HloOp τ sig (Elt F)) :=
  [ nullary main_v0 (iotaInDim S4096 32 0),
    nullary main_c (constantI S_ 32 8#32),
    -- remainder(%0, %c): the divisor, guarded against zero
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    -- the truncated remainder, and whether it is not zero
    TRef.binary (.of main_v0) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    -- the remainder's sign against the divisor's
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    -- the remainder moved to the divisor's sign where they disagree
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    -- back in @main: a negative index counts from the end
    nullary main_c_0 (constantI S_ 32 0#32),
    unary main_c_0 main_v2 (broadcastInDim S4096 ![] bcast_S_S4096 : (⟨S_, .i32⟩ : BufTy).Contents (Elt F) → (⟨S4096, .i32⟩ : BufTy).Contents (Elt F)),
    binary main_v1 main_v2 main_v3 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8#32),
    unary main_c_1 main_v4 (broadcastInDim S4096 ![] bcast_S_S4096 : (⟨S_, .i32⟩ : BufTy).Contents (Elt F) → (⟨S4096, .i32⟩ : BufTy).Contents (Elt F)),
    binary main_v1 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v1 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    -- the rows of the table the indices name, then the batch axis
    unary main_v6 main_v7 (broadcastInDim S4096x1 ![0] bcast_S4096_S4096x1_0 : (⟨S4096, .i32⟩ : BufTy).Contents (Elt F) → (⟨S4096x1, .i32⟩ : BufTy).Contents (Elt F)),
    binary main_arg1 main_v7 main_v8 ((fun x i => Host.gather gather_S8x256_S4096x1_S4096x256_1_0_n_n_0_1_1256 x i) : (⟨S8x256, .f32⟩ : BufTy).Contents (Elt F) → (⟨S4096x1, .i32⟩ : BufTy).Contents (Elt F) → (⟨S4096x256, .f32⟩ : BufTy).Contents (Elt F)),
    unary main_v8 main_v9 (broadcastInDim S1x4096x256 ![1, 2] bcast_S4096x256_S1x4096x256_1_2 : (⟨S4096x256, .f32⟩ : BufTy).Contents (Elt F) → (⟨S1x4096x256, .f32⟩ : BufTy).Contents (Elt F)),
    unary main_v9 main_v10 (broadcastInDim S32x4096x256 ![0, 1, 2] bcast_S1x4096x256_S32x4096x256_0_1_2 : (⟨S1x4096x256, .f32⟩ : BufTy).Contents (Elt F) → (⟨S32x4096x256, .f32⟩ : BufTy).Contents (Elt F)) ]

set_option maxRecDepth 1024 in
/-- @main is that straight line: the two functions' bodies unfolded at their calls, both sides are one chain of host
    steps once the sequencing is reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub ..⟩

/-- From any memory with zero counters every weakly fair execution of @main terminates, and every buffer ends at the
    fold of the line's operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.ReferenceTerm.lean ====
/-
  The reference's result as a TERM of the table, its index vector named stage by stage.

  Read off the straight line, the result is  broadcast (broadcast (gather E (column of w)))  where w, a vector of 4096
  words, is built from the position s in four stages:
    the divisor       d = (8 == 0 ? 1 : 8)
    truncated rem.    r = s rem d
    floored rem.      f = (r != 0 and sign r != sign d) ? r + d : r
    wrapped index     w = f < 0 ? f + 8 : f
  This module only NAMES the stages and shows that the line leaves exactly this term in the result buffer and leaves
  both arguments alone; what the term is at an index is the next module's.
-/
import proofs.«158773_j40252433498313_1_alg».proof.Proof.ReferenceLine

noncomputable section

namespace Cert.ReferenceIdeal.Term

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

/-! ## The index vector, stage by stage -/

/-- The divisor behind its guard against zero. -/
def divisor : IVec S_ 32 :=
  select (cmpi .eq (id (constantI S_ 32 8#32)) (constantI S_ 32 0#32)) (constantI S_ 32 1#32) (id (constantI S_ 32 8#32))

/-- The truncated remainder of the position by the divisor. -/
def truncRem : IVec S4096 32 :=
  Host.remsi (iotaInDim S4096 32 0) (broadcastInDim S4096 ![] bcast_S_S4096 divisor)

/-- The floored remainder: the truncated one, moved by the divisor where it is not zero and the two signs differ. -/
def floorRem : IVec S4096 32 :=
  select
    (andi
      (cmpi .ne (cmpi .slt truncRem (broadcastInDim S4096 ![] bcast_S_S4096 (constantI S_ 32 0#32)))
        (broadcastInDim S4096 ![] bcast_S_S4096 (cmpi .slt divisor (constantI S_ 32 0#32))))
      (cmpi .ne truncRem (broadcastInDim S4096 ![] bcast_S_S4096 (constantI S_ 32 0#32))))
    (addi truncRem (broadcastInDim S4096 ![] bcast_S_S4096 divisor))
    truncRem

/-- The index as the gather takes it: a negative one counted from the end. -/
def wrappedIdx : IVec S4096 32 :=
  select (cmpi .slt floorRem (broadcastInDim S4096 ![] bcast_S_S4096 (constantI S_ 32 0#32)))
    (addi floorRem (broadcastInDim S4096 ![] bcast_S_S4096 (constantI S_ 32 8#32)))
    floorRem

/-- The reference's result as a term of the table. -/
def resultTerm (E : S8x256.Idx → Elt F .f32) : S32x4096x256.Idx → Elt F .f32 :=
  broadcastInDim S32x4096x256 ![0, 1, 2] bcast_S1x4096x256_S32x4096x256_0_1_2
    (broadcastInDim S1x4096x256 ![1, 2] bcast_S4096x256_S1x4096x256_1_2
      (Host.gather gather_S8x256_S4096x1_S4096x256_1_0_n_n_0_1_1256 E
        (broadcastInDim S4096x1 ![0] bcast_S4096_S4096x1_0 wrappedIdx)))

set_option maxHeartbeats 1000000 in
/-- After the line the result buffer holds that term of the table as launched. -/
theorem after_result (V : Valuation τ sig (Elt F)) :
    after ops V (main_v10 : DevRef τ sig) = resultTerm (V (main_arg1 : DevRef τ sig)) := by
  after_results_simp
  simp only [TRef.ofBuf, TRef.toBuf, cast_eq]
  rfl

set_option maxHeartbeats 1000000 in
/-- The line writes neither argument. -/
theorem after_arg0 (V : Valuation τ sig (Elt F)) :
    after ops V (main_arg0 : DevRef τ sig) = V (main_arg0 : DevRef τ sig) := by
  after_results_simp

set_option maxHeartbeats 1000000 in
theorem after_arg1 (V : Valuation τ sig (Elt F)) :
    after ops V (main_arg1 : DevRef τ sig) = V (main_arg1 : DevRef τ sig) := by
  after_results_simp

end Cert.ReferenceIdeal.Term

end
-- ==== Proof.LibRowGather.lean ====
/-
  A gather that takes ROWS of a table, read at an index.

  `table[idx]` for a table of shape [N, C] and a vector `idx` of n row numbers is a gather whose start indices are the
  [n, 1] column of row numbers: axis 0 of the table is collapsed and start-indexed, axis 1 is the one offset axis, the
  slice is one whole row [1, C], and the index vector lies along axis 1 of the start indices. Result element (p, q) is
  the table's element (r, q), where r is row p's start index read as a SIGNED integer and clamped into [0, N - 1] (every
  gather clamps its start so that the slice fits).

  Nothing here mentions a program: `rowDims` is those dimension numbers at any extents, `gather_rows_apply` the read.
-/
import Idealize.ShloMosaic.Lib.ValueIdx
import Idealize.ShloMosaic.Lib.StableHlo.Predicate

namespace RowGather

open Idealize.ShloMosaic Idealize.ShloMosaic.ValueIdx Idealize.ShloMosaic.StableHlo.Predicate

variable {α : Type}

/-- The dimension numbers of "take rows": operand [N, C], start indices [n, 1], result [n, C]. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE READ: result element (p, q) is the table at (row p's start index, signed and clamped into [0, N - 1]; q). -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ixP p)).toInt.toNat (N - 1), by omega⟩ q) := by
  unfold Host.gather
  congr 1
  funext a
  refine Fin.ext ?_
  match a with
  | ⟨0, _⟩ =>
    -- the collapsed axis: the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 p q) ⟨List.idxOf (0 : Fin 2) (rowDims N C n wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    rfl
  | ⟨1, _⟩ =>
    -- the offset axis: no start, the result's own column
    show (rowDims N C n wf).start (ix2 p q) idx 1 + (rowDims N C n wf).batchCoord (ix2 p q) 1
        + (rowDims N C n wf).offCoord (ix2 p q) 1 = q.val
    rw [GatherDims.batchCoord_eq_zero _ _ _ List.not_mem_nil]
    unfold GatherDims.start
    rw [dif_neg (show ¬ (1 : Fin 2) ∈ (rowDims N C n wf).startIndexMap from
      fun h => Nat.one_ne_zero (congrArg Fin.val (List.mem_singleton.mp h)))]
    simp only [Nat.add_zero, Nat.zero_add]
    rfl

end RowGather
-- ==== Proof.LibSmallWords.lean ====
/-
  The floored remainder of small non-negative 32-bit words, piece by piece.

  `a % n` on signed integers is lowered to word operations as: guard the divisor against zero (`n == 0 ? 1 : n`), take
  the TRUNCATED remainder r, and where r is not zero and its sign differs from the divisor's, add the divisor. For
  0 ≤ a < 2³¹ and 0 < n < 2³¹ none of the corrections fires: the guard keeps n, the truncated remainder of two
  non-negative words is the remainder of their values (so it is again small and non-negative), and both sign tests say
  "not negative", so they agree. Each step is one lemma below, stated on words `BitVec.ofNat 32 _` so that a proof
  rewrites a printed chain left to right. Nothing here mentions a program.
-/
import Idealize.ShloMosaic.PureOps

namespace SmallWords

open Idealize.ShloMosaic

/-- A word below 2³¹ has its sign bit clear. -/
theorem msb_ofNat (a : ℕ) (ha : a < 2 ^ 31) : (BitVec.ofNat 32 a).msb = false :=
  BitVec.msb_eq_false_iff_two_mul_lt.mpr (by simp only [BitVec.toNat_ofNat]; omega)

/-- The zero guard keeps a positive divisor. -/
theorem guard_zero (n : ℕ) (hn0 : 0 < n) (hn : n < 2 ^ 32) :
    Scalar.select (IntOp.cmpi .eq (BitVec.ofNat 32 n) 0#32) 1#32 (BitVec.ofNat 32 n) = BitVec.ofNat 32 n := by
  have hne : (BitVec.ofNat 32 n == 0#32) = false := by
    rw [beq_eq_false_iff_ne]
    intro h
    have := congrArg BitVec.toNat h
    simp only [BitVec.toNat_ofNat, Nat.zero_mod] at this
    omega
  simp only [IntOp.cmpi, hne, BitVec.ofBool_false]
  exact if_neg (by decide)

/-- The truncated remainder of two small non-negative words is the remainder of their values, on every unit. -/
theorem remsi_ofNat (u : ArithUnit) (a n : ℕ) (ha : a < 2 ^ 31) (hn0 : 0 < n) (hn : n < 2 ^ 31) :
    IntOp.remsi u (BitVec.ofNat 32 a) (BitVec.ofNat 32 n) = BitVec.ofNat 32 (a % n) := by
  have hcorner : ¬ IntOp.SDivCorner (BitVec.ofNat 32 a) (BitVec.ofNat 32 n) := by
    have h0 : (0 : BitVec 32).toNat = 0 := rfl
    have h1 : (-1 : BitVec 32).toNat = 4294967295 := by decide
    rintro (h | ⟨-, h⟩)
    · have := congrArg BitVec.toNat h
      rw [BitVec.toNat_ofNat, h0] at this
      omega
    · have := congrArg BitVec.toNat h
      rw [BitVec.toNat_ofNat, h1] at this
      omega
  unfold IntOp.remsi
  rw [if_neg hcorner, BitVec.srem_eq, msb_ofNat a ha, msb_ofNat n hn]
  apply BitVec.eq_of_toNat_eq
  have hlt : a % n < n := Nat.mod_lt _ hn0
  have e1 : a % 2 ^ 32 = a := Nat.mod_eq_of_lt (by omega)
  have e2 : n % 2 ^ 32 = n := Nat.mod_eq_of_lt (by omega)
  have e3 : a % n % 2 ^ 32 = a % n := Nat.mod_eq_of_lt (by omega)
  rw [BitVec.toNat_umod, BitVec.toNat_ofNat, BitVec.toNat_ofNat, BitVec.toNat_ofNat, e1, e2, e3]

/-- A small non-negative word is not below zero. -/
theorem slt_zero (a : ℕ) (ha : a < 2 ^ 31) : IntOp.cmpi .slt (BitVec.ofNat 32 a) 0#32 = 0#1 := by
  have h : (BitVec.ofNat 32 a).slt 0#32 = false := by
    rw [BitVec.slt_zero_eq_msb, msb_ofNat a ha]
  show BitVec.ofBool ((BitVec.ofNat 32 a).slt 0#32) = 0#1
  rw [h]
  rfl

/-- Two sign tests that both say "not negative" agree, so the correction's condition is off whatever its other
    conjunct is, and the select keeps the uncorrected value. -/
theorem select_signs_agree {α : Type} (c : BitVec 1) (x y : α) :
    Scalar.select (IntOp.andi (IntOp.cmpi .ne (0#1 : BitVec 1) 0#1) c) x y = y := by
  have h : IntOp.andi (IntOp.cmpi .ne (0#1 : BitVec 1) 0#1) c = 0#1 := by
    rcases BitVec.eq_zero_or_eq_one c with rfl | rfl <;> decide
  rw [h]
  exact if_neg (by decide)

/-- A select on a cleared bit takes its second branch. -/
theorem select_clear {α : Type} (x y : α) : Scalar.select 0#1 x y = y := if_neg (by decide)

/-- A small non-negative word read as a signed integer and then as a natural number is its value. -/
theorem toInt_toNat_ofNat (a : ℕ) (ha : a < 2 ^ 31) : (BitVec.ofNat 32 a).toInt.toNat = a := by
  have h : (BitVec.ofNat 32 a).toInt = (a : Int) := by
    rw [BitVec.toInt_eq_msb_cond, msb_ofNat a ha]
    simp only [BitVec.toNat_ofNat, Bool.false_eq_true, if_false]
    have : a % 2 ^ 32 = a := Nat.mod_eq_of_lt (by omega)
    rw [this]
  rw [h]
  exact Int.toNat_natCast a

end SmallWords
-- ==== Proof.ReferenceTiled.lean ====
/-
  The reference's result array is the table's rows repeated with period 8.

  Read off the straight line, the result is  broadcast (broadcast (gather E (column of w)))  where w, a vector of 4096
  words, is built from the position s in four stages:
    the divisor       d = (8 == 0 ? 1 : 8)                                   (a scalar: 8)
    truncated rem.    r = s rem d                                            (s mod 8: both are non-negative)
    floored rem.      f = (r != 0 and sign r != sign d) ? r + d : r          (r: neither is negative)
    wrapped index     w = f < 0 ? f + 8 : f                                  (f: it is not negative)
  so w at position s is the word s mod 8. The gather reads row "w clamped into [0, 7]" of the table, which is row
  s mod 8 itself, at every column e; the two broadcasts add the batch axis. At (b, s, e) the result is E (s mod 8, e).
-/
import proofs.«158773_j40252433498313_1_alg».proof.Proof.ReferenceTerm
import proofs.«158773_j40252433498313_1_alg».proof.Proof.TableRows
import proofs.«158773_j40252433498313_1_alg».proof.Proof.LibRowGather
import proofs.«158773_j40252433498313_1_alg».proof.Proof.LibSmallWords

noncomputable section

namespace Cert.ReferenceIdeal.Tiled

open Cert.ReferenceIdeal Cert.ReferenceIdeal.Gen Cert.ReferenceIdeal.Line Cert.ReferenceIdeal.Term
open Idealize.ShloMosaic Idealize.ShloMosaic.TcCoe Idealize.SL.Sem Idealize.ShloMosaic.StableHlo
open Idealize.ShloMosaic.ValueIdx Idealize.ShloMosaic.StableHlo.Predicate TableRows

variable {F : FTy → Type} [FloatOps F]

/-! ## Each stage at one position -/

theorem divisor_apply (j : S_.Idx) : divisor j = 8#32 := by
  show Scalar.select (IntOp.cmpi .eq (BitVec.ofNat 32 8) 0#32) 1#32 (BitVec.ofNat 32 8) = BitVec.ofNat 32 8
  exact SmallWords.guard_zero 8 (by decide) (by decide)

theorem truncRem_apply (p : S4096.Idx) : truncRem p = BitVec.ofNat 32 ((p 0).val % 8) := by
  have hp : (p 0).val < 4096 := (p 0).isLt
  show IntOp.remsi .host (BitVec.ofNat 32 (p 0).val) (divisor _) = _
  rw [divisor_apply]
  exact SmallWords.remsi_ofNat .host (p 0).val 8 (by omega) (by decide) (by decide)

/-- The divisor is the constant 8, and the truncated remainder the word of s mod 8, as whole vectors. -/
theorem divisor_eq : divisor = constantI S_ 32 8#32 := funext divisor_apply
theorem truncRem_eq : truncRem = fun p : S4096.Idx => BitVec.ofNat 32 ((p 0).val % 8) := funext truncRem_apply

theorem floorRem_apply (p : S4096.Idx) : floorRem p = BitVec.ofNat 32 ((p 0).val % 8) := by
  have hp : (p 0).val % 8 < 8 := Nat.mod_lt _ (by decide)
  unfold floorRem
  rw [truncRem_eq, divisor_eq]
  show Scalar.select
      (IntOp.andi (IntOp.cmpi .ne (IntOp.cmpi .slt (BitVec.ofNat 32 ((p 0).val % 8)) 0#32) (IntOp.cmpi .slt (8#32 : BitVec 32) 0#32))
        (IntOp.cmpi .ne (BitVec.ofNat 32 ((p 0).val % 8)) 0#32))
      (IntOp.addi (BitVec.ofNat 32 ((p 0).val % 8)) 8#32) (BitVec.ofNat 32 ((p 0).val % 8)) = _
  rw [SmallWords.slt_zero _ (by omega), show IntOp.cmpi .slt (8#32 : BitVec 32) 0#32 = 0#1 from by decide,
    SmallWords.select_signs_agree]

theorem wrappedIdx_apply (p : S4096.Idx) : wrappedIdx p = BitVec.ofNat 32 ((p 0).val % 8) := by
  have hp : (p 0).val % 8 < 8 := Nat.mod_lt _ (by decide)
  show Scalar.select (IntOp.cmpi .slt (floorRem p) 0#32) (IntOp.addi (floorRem p) 8#32) (floorRem p) = _
  rw [floorRem_apply, SmallWords.slt_zero _ (by omega), SmallWords.select_clear]

/-! ## The layout operations at an index -/

/-- A [4096, 256] array given a leading axis of extent 1 reads, at (0, s, e), the array at (s, e). -/
theorem lead_axis_apply {α : Type} (X : S4096x256.Idx → α) (z : Fin 1) (s : Fin 4096) (e : Fin 256) :
    broadcastInDim S1x4096x256 ![1, 2] bcast_S4096x256_S1x4096x256_1_2 X (ix3 z s e) = X (ix2 s e) := by
  simp only [broadcastInDim]
  congr 1
  funext a
  match a with
  | ⟨0, _⟩ =>
    apply Fin.ext
    split
    · next h1 => change (4096 : Nat) = 1 at h1; omega
    · rfl
  | ⟨1, _⟩ =>
    apply Fin.ext
    split
    · next h1 => change (256 : Nat) = 1 at h1; omega
    · rfl

/-- That array repeated along the leading axis reads, at (b, s, e), its entry (0, s, e). -/
theorem batch_axis_apply {α : Type} (X : S1x4096x256.Idx → α) (b : Fin 32) (s : Fin 4096) (e : Fin 256) :
    broadcastInDim S32x4096x256 ![0, 1, 2] bcast_S1x4096x256_S32x4096x256_0_1_2 X (ix3 b s e) = X (ix3 (0 : Fin 1) s e) := by
  simp only [broadcastInDim]
  congr 1
  funext a
  match a with
  | ⟨0, _⟩ =>
    apply Fin.ext
    split
    · rfl
    · next h1 => exact absurd rfl h1
  | ⟨1, _⟩ =>
    apply Fin.ext
    split
    · next h1 => change (4096 : Nat) = 1 at h1; omega
    · rfl
  | ⟨2, _⟩ =>
    apply Fin.ext
    split
    · next h1 => change (256 : Nat) = 1 at h1; omega
    · rfl

/-! ## The result, index by index -/

/-- The program's gather has the dimension numbers of "take rows" of an [8, 256] table at 4096 row numbers. -/
theorem gather_is_rows : gather_S8x256_S4096x1_S4096x256_1_0_n_n_0_1_1256
      = RowGather.rowDims 8 256 4096 Cert.ReferenceIdeal.Gen.gather_S8x256_S4096x1_S4096x256_1_0_n_n_0_1_1256_wf := rfl

/-- So at (s, e) it reads the table at row "the column's entry s, signed, clamped into [0, 7]", column e. -/
theorem rows_read (E : S8x256.Idx → Elt F .f32) (s : Fin 4096) (e : Fin 256) :
    Host.gather (RowGather.rowDims 8 256 4096 Cert.ReferenceIdeal.Gen.gather_S8x256_S4096x1_S4096x256_1_0_n_n_0_1_1256_wf) E
        (broadcastInDim S4096x1 ![0] bcast_S4096_S4096x1_0 wrappedIdx) (ix2 s e)
      = E (ix2 ⟨min ((broadcastInDim S4096x1 ![0] bcast_S4096_S4096x1_0 wrappedIdx) (ixP s)).toInt.toNat (8 - 1), by omega⟩ e) :=
  RowGather.gather_rows_apply (show 0 < 8 by decide) _ E _ s e

/-- The column's entry s is the wrapped index at s: the word of s mod 8. -/
theorem column_read (s : Fin 4096) :
    (broadcastInDim S4096x1 ![0] bcast_S4096_S4096x1_0 wrappedIdx) (ixP s) = BitVec.ofNat 32 (s.val % 8) := by
  rw [bcast_col1, wrappedIdx_apply]
  rfl

/-- A word below 8 is its own clamp into [0, 7]. -/
theorem clamp_small (s : Fin 4096) (hs : s.val % 8 < 8) :
    min (BitVec.ofNat 32 (s.val % 8)).toInt.toNat (8 - 1) = s.val % 8 := by
  rw [SmallWords.toInt_toNat_ofNat _ (by omega)]
  omega

/-- The gather of the rows the wrapped indices name reads, at (s, e), the table at (s mod 8, e). -/
theorem gather_apply (E : S8x256.Idx → Elt F .f32) (s : Fin 4096) (e : Fin 256) :
    Host.gather gather_S8x256_S4096x1_S4096x256_1_0_n_n_0_1_1256 E
        (broadcastInDim S4096x1 ![0] bcast_S4096_S4096x1_0 wrappedIdx) (ix2 s e)
      = E (ix2 (⟨s.val % 8, Nat.mod_lt _ (by decide)⟩ : Fin 8) e) := by
  have hs : s.val % 8 < 8 := Nat.mod_lt _ (by decide)
  rw [gather_is_rows]
  refine (rows_read E s e).trans (congrArg E ?_)
  funext a
  apply Fin.ext
  match a with
  | ⟨0, _⟩ =>
    show min ((broadcastInDim S4096x1 ![0] bcast_S4096_S4096x1_0 wrappedIdx) (ixP s)).toInt.toNat (8 - 1) = s.val % 8
    rw [column_read]
    exact clamp_small s hs
  | ⟨1, _⟩ => rfl

/-- The reference's term is the tiled table. -/
theorem resultTerm_eq (E : S8x256.Idx → Elt F .f32) : resultTerm E = tiled E := by
  funext i
  obtain ⟨b, s, e, rfl⟩ : ∃ (b : Fin 32) (s : Fin 4096) (e : Fin 256), i = ix3 b s e := ⟨i 0, i 1, i 2, eq_ix3 i⟩
  unfold resultTerm
  rw [batch_axis_apply, lead_axis_apply, gather_apply, tiled_apply]

/-! ## The run, read -/

/-- Every execution of the reference terminates with the result buffer at the tiled table and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = tiled (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v10).trans ((after_result (launchContents m c)).trans (resultTerm_eq _)),
        (h c main_arg0).trans (after_arg0 (launchContents m c)),
        (h c main_arg1).trans (after_arg1 (launchContents m c))⟩)
    (run_line m ρ)

end Cert.ReferenceIdeal.Tiled

end
-- ==== Proof.lean ====
/-
  The certificate of a table lookup that needs no lookup.

  Both programs take a table E of shape [8, 256] (and an array x of shape [32, 4096, 256] of which only the shape
  matters) and produce the array of shape [32, 4096, 256] whose entry (b, s, e) is E (s mod 8, e).

  The reference computes the row numbers s mod 8 for s = 0 … 4095 as words, gathers those rows of the table and
  repeats the result over the batch axis. The kernel never computes an index: on a 4 × 4 grid each point fills a block
  of 8 batches × 1024 positions × 256 columns with the table's 8 rows laid end to end 128 times, and because 1024 is a
  multiple of 8 the pattern is in phase with s mod 8 in every block.

  Nothing is computed on the table's entries by either program, so the two results agree entry by entry for every
  table — finite or not — and the precondition is never opened. Each side is shown to end at ONE function of the
  table, `TableRows.tiled`: the kernel in `KernelTiled` (over the generated value leg: what a grid point writes, block
  by block), the reference in `ReferenceLine` (its straight line of host operations, the outlined functions' bodies
  in the calls' places) and `ReferenceTiled` (that line's result term read at an index). The idealization rewrote
  no operation, so `preserves` has nothing to state. The kernel programs' frames are the generated ones; the
  reference's frame is its run with the result forgotten.
-/
import proofs.«158773_j40252433498313_1_alg».proof.Defs
import proofs.«158773_j40252433498313_1_alg».proof.Proof.Gen.Kernel
import proofs.«158773_j40252433498313_1_alg».proof.Proof.Gen.Kernel.Skeleton
import proofs.«158773_j40252433498313_1_alg».proof.Proof.Gen.Kernel.Launch
import proofs.«158773_j40252433498313_1_alg».proof.Proof.Gen.Kernel.Points
import proofs.«158773_j40252433498313_1_alg».proof.Proof.Gen.Kernel.Frame
import proofs.«158773_j40252433498313_1_alg».proof.Proof.Gen.KernelIdeal
import proofs.«158773_j40252433498313_1_alg».proof.Proof.Gen.KernelIdeal.Skeleton
import proofs.«158773_j40252433498313_1_alg».proof.Proof.Gen.KernelIdeal.Launch
import proofs.«158773_j40252433498313_1_alg».proof.Proof.Gen.KernelIdeal.Points
import proofs.«158773_j40252433498313_1_alg».proof.Proof.Gen.KernelIdeal.Frame
import proofs.«158773_j40252433498313_1_alg».proof.Proof.Gen.KernelIdeal.Value
import proofs.«158773_j40252433498313_1_alg».proof.Proof.Gen.ReferenceIdeal
import proofs.«158773_j40252433498313_1_alg».proof.Proof.Gen.Pre_finite_inputs
import proofs.«158773_j40252433498313_1_alg».proof.Proof.KernelTiled
import proofs.«158773_j40252433498313_1_alg».proof.Proof.ReferenceTiled
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Tiled.run (F := Ideal) m ρ)

/-- The idealization rewrote nothing. -/
theorem preserves : Cert.preserves_Kernel_KernelIdeal := trivial

/-- From memories that agree on the arguments both programs end with the result at the tiled table of the SAME table. -/
theorem algebraic : Cert.algebraic_KernelIdeal_ReferenceIdeal := by
  intro m ρ m' ρ' _ hagree
  refine ⟨fun c => TableRows.tiled (m ((c.tc : Thread Cert.KernelIdeal.nD Cert.KernelIdeal.τ).loc Cert.KernelIdeal.main_arg1)),
    Cert.KernelIdeal.Tiled.run (F := Ideal) m ρ, ?_⟩
  refine (θ_run Cert.ReferenceIdeal.defs _ _).mono (fun _ h c => ⟨(h c).1.trans ?_, (h c).2⟩)
    (Cert.ReferenceIdeal.Tiled.run (F := Ideal) m' ρ')
  rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
